-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S800000 .f32) (main_arg3 : FVec F S128x128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 29
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S128x128, .f32⟩
  | .hbm, ⟨27, _⟩ => ⟨S128x128, .f32⟩
  | .hbm, ⟨28, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S128x128, .f32⟩
  | .hbm, ⟨27, _⟩ => ⟨S50000x128, .f32⟩
  | .hbm, ⟨28, _⟩ => ⟨S128x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BlockPayload.lean ====
/-
  One grid step's result block, read at an index.

  The body loads a 5000 × 128 block of aggregated messages and of node features, the two 128 × 128 weight matrices and
  the bias, narrows the four matrix operands to bf16 (the identity on extended reals), forms two matrix products into
  zero accumulators, adds them, and adds the bias broadcast over the rows. At row `p`, column `q` of the block that is

      (∑ k, msgs[p, k] · A[k, q]) + (∑ k, feats[p, k] · B[k, q]) + bias[q].
-/
import proofs.«155604_j87806311399691_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.ValueIdx

/-! ## The block product's operand indices: output (p, q) and contraction index k read (p, k) and (k, q) -/

theorem lhs_axis0 (i : S5000x128.Idx) (j : dot_S5000x128_S128x128_S5000x128_1_0_0_1_n_n.contr.Idx) :
    (dot_S5000x128_S128x128_S5000x128_1_0_0_1_n_n.lhsIdx i j 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (j : dot_S5000x128_S128x128_S5000x128_1_0_0_1_n_n.contr.Idx) :
    (dot_S5000x128_S128x128_S5000x128_1_0_0_1_n_n.lhsIdx i j 1).val = (j ⟨0, by decide⟩).val :=
  dot_S5000x128_S128x128_S5000x128_1_0_0_1_n_n.lhsIdx_val_of_single rfl i j
theorem rhs_axis0 (i : S5000x128.Idx) (j : dot_S5000x128_S128x128_S5000x128_1_0_0_1_n_n.contr.Idx) :
    (dot_S5000x128_S128x128_S5000x128_1_0_0_1_n_n.rhsIdx i j 0).val = (j ⟨0, by decide⟩).val :=
  dot_S5000x128_S128x128_S5000x128_1_0_0_1_n_n.rhsIdx_val_of_single rfl i j
theorem rhs_axis1 (i : S5000x128.Idx) (j : dot_S5000x128_S128x128_S5000x128_1_0_0_1_n_n.contr.Idx) :
    (dot_S5000x128_S128x128_S5000x128_1_0_0_1_n_n.rhsIdx i j 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `p`, column `q`: the sum over the 128 features of the left
    operand's row `p` against the right operand's column `q`. -/
theorem blockProduct_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's stored value at row `p`, column `q` of the block. -/
theorem blockPayload_apply (msgs feats : Vec Ideal S5000x128 .f32) (A B : Vec Ideal S128x128 .f32) (bias : Vec Ideal S128 .f32)
    (p : Fin 5000) (q : Fin 128) :
    k0_pay1 msgs feats A B bias (ix2 p q)
      = (∑ k : Fin 128, msgs (ix2 p k) * A (ix2 k q)) + (∑ k : Fin 128, feats (ix2 p k) * B (ix2 k q)) + bias (ix1 q) := by
  unfold k0_pay1
  rw [addf_apply, addf_apply, blockProduct_apply, blockProduct_apply, broadcastTo_1b_ab_apply, shapeCast_a_1a_apply]
  simp only [truncf_apply, shapeCast_self]

end Cert.KernelIdeal.BlockValue

end
-- ==== Proof.DenseStage.lean ====
/-
  The dense stage of the graph convolution as ONE function of whole arrays, over the extended reals.

  With `agg` the aggregated messages (one row of 128 features per node), `x` the node features, `A` and `B` the two
  128 × 128 weight matrices as they meet the products (already transposed) and `b` the bias, row `r`, column `c` of the
  result is

      (∑ k, agg[r, k] · A[k, c]) + (∑ k, x[r, k] · B[k, c]) + b[c].

  Both programs compute exactly this grouping: two contractions over the 128 features, their sum, then the bias. The
  kernel does it 5000 rows at a time, the reference on all 50000 rows at once; a row of the result depends only on the
  same row of `agg` and `x`, which is why the tiling does not matter. No law of arithmetic is needed beyond reading
  each product at an index, so nothing here asks the inputs to be finite.
-/
import Idealize.ShloMosaic.PureOps.Ideal
import Idealize.ShloMosaic.Lib.ValueIdx

noncomputable section

namespace Cert.GraphConv

open Idealize.ShloMosaic Idealize.ShloMosaic.ValueIdx

/-- Row `r`, column `c` of the dense stage: the two contractions over the feature axis, added, plus the bias. -/
def denseStage (agg x : (⟨2, ![50000, 128]⟩ : Shape).Idx → EReal) (A B : (⟨2, ![128, 128]⟩ : Shape).Idx → EReal)
    (b : (⟨1, ![128]⟩ : Shape).Idx → EReal) : (⟨2, ![50000, 128]⟩ : Shape).Idx → EReal :=
  fun i => (∑ k : Fin 128, agg (ix2 (i 0) k) * A (ix2 k (i 1))) + (∑ k : Fin 128, x (ix2 (i 0) k) * B (ix2 k (i 1)))
    + b (ix1 (i 1))

theorem denseStage_apply (agg x : (⟨2, ![50000, 128]⟩ : Shape).Idx → EReal) (A B : (⟨2, ![128, 128]⟩ : Shape).Idx → EReal)
    (b : (⟨1, ![128]⟩ : Shape).Idx → EReal) (i : (⟨2, ![50000, 128]⟩ : Shape).Idx) :
    denseStage agg x A B b i
      = (∑ k : Fin 128, agg (ix2 (i 0) k) * A (ix2 k (i 1))) + (∑ k : Fin 128, x (ix2 (i 0) k) * B (ix2 k (i 1)))
        + b (ix1 (i 1)) := rfl

/-- A 5000-row block of the dense stage from the blocks of its operands. If row `p` of a block of messages and of
    features is row `I 0` of the whole arrays, and column `q` of the weights and of the bias is column `I 1`, then the
    block's two contractions plus its bias entry are the dense stage at `I`. -/
theorem denseStage_of_block (agg x : (⟨2, ![50000, 128]⟩ : Shape).Idx → EReal) (A B : (⟨2, ![128, 128]⟩ : Shape).Idx → EReal)
    (b : (⟨1, ![128]⟩ : Shape).Idx → EReal)
    (aggBlk xBlk : (⟨2, ![5000, 128]⟩ : Shape).Idx → EReal) (ABlk BBlk : (⟨2, ![128, 128]⟩ : Shape).Idx → EReal)
    (bBlk : (⟨1, ![128]⟩ : Shape).Idx → EReal)
    (I : (⟨2, ![50000, 128]⟩ : Shape).Idx) (p : Fin 5000) (q : Fin 128)
    (hagg : ∀ k : Fin 128, aggBlk (ix2 p k) = agg (ix2 (I 0) k)) (hx : ∀ k : Fin 128, xBlk (ix2 p k) = x (ix2 (I 0) k))
    (hA : ∀ k : Fin 128, ABlk (ix2 k q) = A (ix2 k (I 1))) (hB : ∀ k : Fin 128, BBlk (ix2 k q) = B (ix2 k (I 1)))
    (hb : bBlk (ix1 q) = b (ix1 (I 1))) :
    (∑ k : Fin 128, aggBlk (ix2 p k) * ABlk (ix2 k q)) + (∑ k : Fin 128, xBlk (ix2 p k) * BBlk (ix2 k q)) + bBlk (ix1 q)
      = denseStage agg x A B b I := by
  rw [denseStage_apply, hb]
  refine congrArg (· + b (ix1 (I 1))) (congrArg₂ (· + ·) (Finset.sum_congr rfl fun k _ => ?_) (Finset.sum_congr rfl fun k _ => ?_))
  · rw [hagg k, hA k]
  · rw [hx k, hB k]

end Cert.GraphConv

end
-- ==== Proof.KernelArray.lean ====
/-
  The kernel's result array after the run, as one function of the arrays the region is entered with.

  The grid has ten steps; step `t` stages rows 5000·t … 5000·t + 4999 of the aggregated messages and of the node
  features, and the two weight matrices and the bias whole, and writes back the same rows of the result. So what
  step `t` writes is block `t` of the dense stage of the whole arrays, the ten row blocks tile the 50000 rows, and the
  result array ends as the dense stage itself.
-/
import proofs.«155604_j87806311399691_1_alg».proof.Proof.Gen.KernelIdeal.Value
import proofs.«155604_j87806311399691_1_alg».proof.Proof.BlockPayload
import proofs.«155604_j87806311399691_1_alg».proof.Proof.DenseStage

noncomputable section

namespace Cert.KernelIdeal.ArrayValue

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- Where each window's block sits at step `t`, decided over the ten steps: the three row-blocked windows (messages,
    features, result) at row block `t`, column block 0; the weights and the bias at block 0 throughout. -/
theorem blockIndices : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 :=
  (by decide +kernel : ∀ t : Fin grid0.N, _)

/-- The arrays as the region finds them, each at its literal type: the aggregated messages `%16`, the node features,
    the two transposed weight matrices `%17` and `%18`, the bias. -/
abbrev msgsAtEntry (c : Dev nD) : S50000x128.Idx → EReal := V m c main_v16
abbrev featsAtEntry (c : Dev nD) : S50000x128.Idx → EReal := V m c main_arg0
abbrev relTAtEntry (c : Dev nD) : S128x128.Idx → EReal := V m c main_v17
abbrev rootTAtEntry (c : Dev nD) : S128x128.Idx → EReal := V m c main_v18
abbrev biasAtEntry (c : Dev nD) : S128.Idx → EReal := V m c main_arg5

/-- The dense stage of those arrays. -/
abbrev entryStage (c : Dev nD) : S50000x128.Idx → EReal :=
  denseStage (msgsAtEntry m c) (featsAtEntry m c) (relTAtEntry m c) (rootTAtEntry m c) (biasAtEntry m c)

/-! ## Reading an array through a step's block: the array at the embedded index (over any array) -/

theorem read_msgsBlock (t : Fin cfg0.N) (X : S50000x128.Idx → EReal) (y : S5000x128.Idx) :
    ((cfg0.win 0).blk t).view.read (Elt Ideal) X y = X (((cfg0.win 0).blk t).view.emb y) := rfl
theorem read_featsBlock (t : Fin cfg0.N) (X : S50000x128.Idx → EReal) (y : S5000x128.Idx) :
    ((cfg0.win 1).blk t).view.read (Elt Ideal) X y = X (((cfg0.win 1).blk t).view.emb y) := rfl
theorem read_relTBlock (t : Fin cfg0.N) (X : S128x128.Idx → EReal) (y : S128x128.Idx) :
    ((cfg0.win 2).blk t).view.read (Elt Ideal) X y = X (((cfg0.win 2).blk t).view.emb y) := rfl
theorem read_rootTBlock (t : Fin cfg0.N) (X : S128x128.Idx → EReal) (y : S128x128.Idx) :
    ((cfg0.win 3).blk t).view.read (Elt Ideal) X y = X (((cfg0.win 3).blk t).view.emb y) := rfl
theorem read_biasBlock (t : Fin cfg0.N) (X : S128.Idx → EReal) (y : S128.Idx) :
    ((cfg0.win 4).blk t).view.read (Elt Ideal) X y = X (((cfg0.win 4).blk t).view.emb y) := rfl
theorem read_resultBlock (t : Fin cfg0.N) (X : S50000x128.Idx → EReal) (y : S5000x128.Idx) :
    ((cfg0.win 5).blk t).view.read (Elt Ideal) X y = X (((cfg0.win 5).blk t).view.emb y) := rfl

/-- Each input block at step `t` is its entry array read there. -/
theorem msgsBlock_apply (c : Dev nD) (t : Fin cfg0.N) (y : S5000x128.Idx) :
    iblk m c 0 t y = msgsAtEntry m c (((cfg0.win 0).blk t).view.emb y) := by
  unfold iblk; exact read_msgsBlock t (msgsAtEntry m c) y
theorem featsBlock_apply (c : Dev nD) (t : Fin cfg0.N) (y : S5000x128.Idx) :
    iblk m c 1 t y = featsAtEntry m c (((cfg0.win 1).blk t).view.emb y) := by
  unfold iblk; exact read_featsBlock t (featsAtEntry m c) y
theorem relTBlock_apply (c : Dev nD) (t : Fin cfg0.N) (y : S128x128.Idx) :
    iblk m c 2 t y = relTAtEntry m c (((cfg0.win 2).blk t).view.emb y) := by
  unfold iblk; exact read_relTBlock t (relTAtEntry m c) y
theorem rootTBlock_apply (c : Dev nD) (t : Fin cfg0.N) (y : S128x128.Idx) :
    iblk m c 3 t y = rootTAtEntry m c (((cfg0.win 3).blk t).view.emb y) := by
  unfold iblk; exact read_rootTBlock t (rootTAtEntry m c) y
theorem biasBlock_apply (c : Dev nD) (t : Fin cfg0.N) (y : S128.Idx) :
    iblk m c 4 t y = biasAtEntry m c (((cfg0.win 4).blk t).view.emb y) := by
  unfold iblk; exact read_biasBlock t (biasAtEntry m c) y

/-- What step `t` writes back is row block `t` of the dense stage. -/
theorem flushed_eq (c : Dev nD) (t : Fin cfg0.N) :
    (dats m 0 c).flushed 5 t = ((cfg0.win 5).blk t).view.read (Elt Ideal) (entryStage m c) := by
  rw [Value.flushed5]
  unfold out0_5
  rw [View.canon_unit_zero zeros2]
  simp only [View.ld_unit_zero (S := S5000x128) zeros2, View.ld_unit_zero (S := S128x128) zeros2, View.ld_unit_zero (S := S128) zeros1]
  obtain ⟨o0, o1, a0, a1, b0, b1, c0, c1, d0, d1, e0⟩ := blockIndices t
  funext j
  obtain ⟨p, q, rfl⟩ : ∃ (p : Fin 5000) (q : Fin 128), j = ix2 p q := ⟨j 0, j 1, eq_ix2 j⟩
  refine (BlockValue.blockPayload_apply (iblk m c 0 t) (iblk m c 1 t) (iblk m c 2 t) (iblk m c 3 t) (iblk m c 4 t) p q).trans ?_
  refine Eq.trans ?_ (read_resultBlock t (entryStage m c) (ix2 p q)).symm
  have rowOf : ((((cfg0.win 5).blk t).view.emb (ix2 p q) : S50000x128.Idx) 0).val = win0_5.index t (0 : Fin 2) * 5000 + 1 * p.val := rfl
  have colOf : ((((cfg0.win 5).blk t).view.emb (ix2 p q) : S50000x128.Idx) 1).val = win0_5.index t (1 : Fin 2) * 128 + 1 * q.val := rfl
  refine denseStage_of_block (msgsAtEntry m c) (featsAtEntry m c) (relTAtEntry m c) (rootTAtEntry m c) (biasAtEntry m c)
    (iblk m c 0 t) (iblk m c 1 t) (iblk m c 2 t) (iblk m c 3 t) (iblk m c 4 t)
    (((cfg0.win 5).blk t).view.emb (ix2 p q)) p q ?_ ?_ ?_ ?_ ?_
  -- the messages' and the features' blocks hold the same rows, all 128 columns
  · intro k
    refine (msgsBlock_apply m c t (ix2 p k)).trans (congrArg (msgsAtEntry m c) ?_)
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    refine (featsBlock_apply m c t (ix2 p k)).trans (congrArg (featsAtEntry m c) ?_)
    funext a; apply Fin.ext
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  -- the weight blocks are the whole matrices, the bias block the whole bias
  · intro k
    refine (relTBlock_apply m c t (ix2 k q)).trans (congrArg (relTAtEntry m c) ?_)
    funext a; apply Fin.ext
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · intro k
    refine (rootTBlock_apply m c t (ix2 k q)).trans (congrArg (rootTAtEntry m c) ?_)
    funext a; apply Fin.ext
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · refine (biasBlock_apply m c t (ix1 q)).trans (congrArg (biasAtEntry m c) ?_)
    funext a; apply Fin.ext
    match a with
    | ⟨0, _⟩ => show win0_4.index t (0 : Fin 1) * 128 + 1 * q.val = win0_5.index t (1 : Fin 2) * 128 + 1 * q.val; omega

/-! ## The ten row blocks tile the result array -/

/-- An index of the result array is in step `t`'s block iff each coordinate is in the block's range on its axis. -/
theorem mem_resultBlock (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- Row `r` is written by step `r / 5000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨o0, o1, -⟩ := blockIndices ⟨(i 0).val / 5000, ht⟩
  have o0' : win0_5.index ⟨(i 0).val / 5000, ht⟩ (0 : Fin 2) = (i 0).val / 5000 := o0
  refine ⟨⟨(i 0).val / 5000, ht⟩, flush0_5 _, ?_⟩
  rw [mem_resultBlock]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    omega

/-- The result array after the run is the dense stage of the arrays the region was entered with. -/
theorem finalArray (c : Dev nD) : (dats m 0 c).arrAt 5 cfg0.N = entryStage m c :=
  (dats m 0 c).arrAt_eq_of_cover 5 (entryStage m c) (fun t _ => flushed_eq m c t) covered

/-- The kernel's run with its result named: the dense stage of the entry arrays; the arguments unchanged. -/
theorem run : θ_run defs (onTc (τ := τ) (main (F := Ideal))) ⟨m, fun _ => 0, ρ⟩ fun r => ∀ c : Dev nD,
      r.2.mem ((c : Thread nD τ).loc main_v19) = entryStage m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (finalArray m c), (h c).2⟩) (Value.run_blocks m ρ)

end Cert.KernelIdeal.ArrayValue

end
-- ==== Proof.EntryArrays.lean ====
/-
  The arrays the kernel's region is entered with are the reference's own intermediate arrays.

  Before its one pallas_call the kernel's @main runs, on the host, the same operations as the reference: source and
  destination rows sliced out of the edge list, negative sources wrapped by 50000, the gather of the source rows, their
  scaling by the edge weights, the scatter-add into 50000 rows (`%16`), and the two weight transposes. So at region entry
  `%16`, `%17` and `%18` hold exactly the reference's stages `%16`, `%17` and `%19` of the launch arguments, and the node
  features and the bias are the arguments themselves. With that the dense stage of the entry arrays is the dense stage
  the reference computes.
-/
import proofs.«155604_j87806311399691_1_alg».proof.Proof.KernelArray
import proofs.«155604_j87806311399691_1_alg».proof.Proof.Gen.ReferenceIdeal.Read
import Idealize.ShloMosaic.Lib.StableHlo.Run

noncomputable section

namespace Cert.KernelIdeal.EntryArrays

open Cert.KernelIdeal Cert.KernelIdeal.Gen Cert.KernelIdeal.ArrayValue
open Idealize.ShloMosaic Idealize.ShloMosaic.TcCoe Idealize.SL.Sem Idealize.ShloMosaic.StableHlo Cert.GraphConv

variable (m : (ℓ : Loc nD τ sig) → Buf (Elt Ideal) ℓ)

set_option maxHeartbeats 2000000 in
/-- The aggregated messages at region entry: gather, scale, scatter-add of the launch arguments. -/
theorem msgs_eq (c : Dev nD) : msgsAtEntry m c
    = Cert.ReferenceIdeal.Read.val_main_v16 (F := Ideal) (m ((c : Thread nD τ).loc main_arg0)) (m ((c : Thread nD τ).loc main_arg1)) (m ((c : Thread nD τ).loc main_arg2)) := by
  dsimp only [msgsAtEntry, Gen.V, Gen.hostOps0]; after_results <;> rfl

/-- The two weight matrices at region entry, transposed. -/
theorem relT_eq (c : Dev nD) : relTAtEntry m c
    = Cert.ReferenceIdeal.Read.val_main_v17 (F := Ideal) (m ((c : Thread nD τ).loc main_arg3)) := by
  dsimp only [relTAtEntry, Gen.V, Gen.hostOps0]; after_results <;> rfl
theorem rootT_eq (c : Dev nD) : rootTAtEntry m c
    = Cert.ReferenceIdeal.Read.val_main_v19 (F := Ideal) (m ((c : Thread nD τ).loc main_arg4)) := by
  dsimp only [rootTAtEntry, Gen.V, Gen.hostOps0]; after_results <;> rfl

/-- The node features and the bias at region entry are the launch arguments. -/
theorem feats_eq (c : Dev nD) : featsAtEntry m c = m ((c : Thread nD τ).loc main_arg0) := V_main_arg0 m c
theorem bias_eq (c : Dev nD) : biasAtEntry m c = m ((c : Thread nD τ).loc main_arg5) := V_main_arg5 m c

/-- The kernel's result in the reference's terms. -/
theorem entryStage_eq (c : Dev nD) : entryStage m c
    = denseStage
        (Cert.ReferenceIdeal.Read.val_main_v16 (F := Ideal) (m ((c : Thread nD τ).loc main_arg0)) (m ((c : Thread nD τ).loc main_arg1)) (m ((c : Thread nD τ).loc main_arg2)))
        (m ((c : Thread nD τ).loc main_arg0))
        (Cert.ReferenceIdeal.Read.val_main_v17 (F := Ideal) (m ((c : Thread nD τ).loc main_arg3)))
        (Cert.ReferenceIdeal.Read.val_main_v19 (F := Ideal) (m ((c : Thread nD τ).loc main_arg4)))
        (m ((c : Thread nD τ).loc main_arg5)) := by
  show denseStage (msgsAtEntry m c) (featsAtEntry m c) (relTAtEntry m c) (rootTAtEntry m c) (biasAtEntry m c) = _
  rw [msgs_eq, feats_eq, relT_eq, rootT_eq, bias_eq]

end Cert.KernelIdeal.EntryArrays

end
-- ==== Proof.ReferenceStage.lean ====
/-
  The reference's result as the dense stage of its own intermediate arrays.

  After the shared prefix (gather, scale by the edge weight, scatter-add into 50000 rows: `%16`) the reference takes
  `%16 · W_relᵀ` and `x · W_rootᵀ` as two whole `dot_general`s contracting the 128 features, adds them, and adds the
  bias broadcast along the rows. Read at row `r`, column `c` that is the dense stage of `%16`, `x`, the two transposed
  weight matrices `%17` and `%19`, and `b`.
-/
import proofs.«155604_j87806311399691_1_alg».proof.Proof.Gen.ReferenceIdeal.Read
import proofs.«155604_j87806311399691_1_alg».proof.Proof.DenseStage

noncomputable section

namespace Cert.ReferenceIdeal.StageValue

open Cert.ReferenceIdeal Cert.ReferenceIdeal.Gen Cert.ReferenceIdeal.Read
open Idealize.ShloMosaic Idealize.ShloMosaic.ValueIdx Cert.GraphConv

/-! ## The two products' operand indices and the bias's, as coordinates -/

theorem relLeft (i : S50000x128.Idx) (k : Fin 128) : lidx_main_v18 i k = ix2 (i 0) k :=
  funext fun a => Fin.ext (by match a with | ⟨0, _⟩ => rfl | ⟨1, _⟩ => rfl)
theorem relRight (i : S50000x128.Idx) (k : Fin 128) : ridx_main_v18 i k = ix2 k (i 1) :=
  funext fun a => Fin.ext (by match a with | ⟨0, _⟩ => rfl | ⟨1, _⟩ => rfl)
theorem rootLeft (i : S50000x128.Idx) (k : Fin 128) : lidx_main_v20 i k = ix2 (i 0) k :=
  funext fun a => Fin.ext (by match a with | ⟨0, _⟩ => rfl | ⟨1, _⟩ => rfl)
theorem rootRight (i : S50000x128.Idx) (k : Fin 128) : ridx_main_v20 i k = ix2 k (i 1) :=
  funext fun a => Fin.ext (by match a with | ⟨0, _⟩ => rfl | ⟨1, _⟩ => rfl)
theorem biasColumn (i : S50000x128.Idx) : idx_main_v22 (idx_main_v23 i) = ix1 (i 1) :=
  funext fun a => Fin.ext (by match a with | ⟨0, _⟩ => rfl)

/-- The reference's result stage is the dense stage of its aggregated messages, the node features, the transposed
    weights and the bias. -/
theorem result_eq_denseStage (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 x4 : (⟨S128x128, .f32⟩ : BufTy).Contents (Elt Ideal))
    (x5 : (⟨S128, .f32⟩ : BufTy).Contents (Elt Ideal)) :
    val_main_v24 (F := Ideal) x0 x1 x2 x3 x4 x5
      = denseStage (val_main_v16 (F := Ideal) x0 x1 x2) x0 (val_main_v17 (F := Ideal) x3) (val_main_v19 (F := Ideal) x4) x5 := by
  funext i
  rw [val_main_v24_apply, val_main_v21_apply, val_main_v18_apply, val_main_v20_apply, val_main_v23_apply, val_main_v22_apply,
    denseStage_apply]
  simp only [relLeft, relRight, rootLeft, rootRight, biasColumn]
  rfl

end Cert.ReferenceIdeal.StageValue

end
-- ==== Proof.lean ====
/-
  The certificate of a graph convolution with summed neighbour messages,

      out_i = W_root · x_i + b + W_rel · ( ∑_{j → i} e_ji · x_j ),

  over 50000 nodes with 128 features and 800000 weighted edges.

  Both programs begin with the same host operations: the source and destination rows of the edge list, a negative
  source wrapped by 50000, the gather of the source rows of `x`, their scaling by the edge weights, and the scatter-add
  into one row per destination node (the aggregated messages), then the transposes of the two weight matrices. The
  reference finishes with two whole matrix products, their sum, and the bias broadcast along the rows. The kernel
  finishes with one pallas_call over ten blocks of 5000 rows, each block forming the same two products (its operands
  narrowed to bf16, which is the identity on extended reals) into zero accumulators, their sum, and the bias.

  Row `r`, column `c` of either result is
      (∑ k, agg[r, k] · W_relᵀ[k, c]) + (∑ k, x[r, k] · W_rootᵀ[k, c]) + b[c],
  with the same grouping on both sides (`GraphConv.denseStage`): a row of the result needs only the same row of `agg`
  and `x`, so cutting the rows into blocks changes nothing, and no law of arithmetic beyond reading each product at an
  index is used; the precondition is never opened. The kernel's result array is that function of the arrays its region
  is entered with (`ArrayValue.run`), those arrays are the reference's own intermediate arrays of the same arguments
  (`EntryArrays.entryStage_eq`), and the reference's last stage is that function too (`StageValue.result_eq_denseStage`).
  The ideal pass rewrote nothing, so `preserves` is trivial; the two kernel frames are the generated ones and the
  reference's frame is its generated run with the result dropped.
-/
import proofs.«155604_j87806311399691_1_alg».proof.Defs
import proofs.«155604_j87806311399691_1_alg».proof.Proof.Gen.Kernel
import proofs.«155604_j87806311399691_1_alg».proof.Proof.Gen.Kernel.Skeleton
import proofs.«155604_j87806311399691_1_alg».proof.Proof.Gen.Kernel.Launch
import proofs.«155604_j87806311399691_1_alg».proof.Proof.Gen.Kernel.Points
import proofs.«155604_j87806311399691_1_alg».proof.Proof.Gen.Kernel.Frame
import proofs.«155604_j87806311399691_1_alg».proof.Proof.Gen.KernelIdeal
import proofs.«155604_j87806311399691_1_alg».proof.Proof.Gen.KernelIdeal.Skeleton
import proofs.«155604_j87806311399691_1_alg».proof.Proof.Gen.KernelIdeal.Launch
import proofs.«155604_j87806311399691_1_alg».proof.Proof.Gen.KernelIdeal.Points
import proofs.«155604_j87806311399691_1_alg».proof.Proof.Gen.KernelIdeal.Frame
import proofs.«155604_j87806311399691_1_alg».proof.Proof.Gen.ReferenceIdeal
import proofs.«155604_j87806311399691_1_alg».proof.Proof.Gen.KernelIdeal.Value
import proofs.«155604_j87806311399691_1_alg».proof.Proof.Gen.ReferenceIdeal.Run
import proofs.«155604_j87806311399691_1_alg».proof.Proof.Gen.ReferenceIdeal.Read
import proofs.«155604_j87806311399691_1_alg».proof.Proof.Gen.Pre_finite_inputs
import proofs.«155604_j87806311399691_1_alg».proof.Proof.KernelArray
import proofs.«155604_j87806311399691_1_alg».proof.Proof.EntryArrays
import proofs.«155604_j87806311399691_1_alg».proof.Proof.ReferenceStage
import Idealize.ShloMosaic.Adequacy
import Idealize.ShloMosaic.Init

noncomputable section

namespace Cert.Proof

open Idealize.ShloMosaic Idealize.SL.Sem

/-- Both kernel programs run and leave their arguments alone: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the six arguments both programs end with the dense stage of the same aggregated
    messages, node features, transposed weights and bias. -/
theorem algebraic : Cert.algebraic_KernelIdeal_ReferenceIdeal := by
  intro m ρ m' ρ' _ hagree
  refine ⟨fun c => Cert.KernelIdeal.ArrayValue.entryStage m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  show _ = Cert.KernelIdeal.ArrayValue.entryStage m c
  rw [Cert.KernelIdeal.EntryArrays.entryStage_eq, ← h0, ← h1, ← h2, ← h3, ← h4, ← h5]
  exact (Cert.ReferenceIdeal.Read.val_main_v24_eq _ _ _ _ _ _).trans
    (Cert.ReferenceIdeal.StageValue.result_eq_denseStage _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
